-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x32 : Shape := ⟨2, ![1600000, 32]⟩
abbrev S1600000 : Shape := ⟨1, ![1600000]⟩
abbrev S128x160 : Shape := ⟨2, ![128, 160]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x160 : S_.BroadcastsInDim S128x160 (![] : Fin 0 → Fin S128x160.rank)
  reducesTo_S128x160_S_d0_1 : S128x160.ReducesTo [0, 1] S_

variable [Facts]

def fn {F : FTy → Type} [FloatOps F] (main_arg0 : FVec F S50000x128 .f32) (main_arg1 : FVec F S1600000x32 .f32) (main_arg2 : IVec S1600000 32) (main_arg3 : FVec F S128x160 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x160 .f32 := Host.absf main_arg3
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  main_v13
-- ==== Kernel.lean ====
abbrev S50000x128 : Shape := ⟨2, ![50000, 128]⟩
abbrev S1600000x32 : Shape := ⟨2, ![1600000, 32]⟩
abbrev S1600000 : Shape := ⟨1, ![1600000]⟩
abbrev S128x160 : Shape := ⟨2, ![128, 160]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S16000x32 : Shape := ⟨2, ![16000, 32]⟩
abbrev S16000x1 : Shape := ⟨2, ![16000, 1]⟩
abbrev S16000 : Shape := ⟨1, ![16000]⟩
abbrev S128x128 : Shape := ⟨2, ![128, 128]⟩
abbrev S128x32 : Shape := ⟨2, ![128, 32]⟩
abbrev S32x128 : Shape := ⟨2, ![32, 128]⟩
abbrev S5000x128 : Shape := ⟨2, ![5000, 128]⟩
abbrev S5000x32 : Shape := ⟨2, ![5000, 32]⟩

abbrev nBuf : Space → Nat
  | .hbm => 66
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S1600000x32, .f32⟩
  | .hbm, ⟨2, _⟩ => ⟨S1600000, .i32⟩
  | .hbm, ⟨3, _⟩ => ⟨S128x160, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S50000, .f32⟩
  | .hbm, ⟨8, _⟩ => ⟨S1600000x1, .i32⟩
  | .hbm, ⟨9, _⟩ => ⟨S50000, .f32⟩
  | .hbm, ⟨10, _⟩ => ⟨S_, .f32⟩
  | .hbm, ⟨11, _⟩ => ⟨S50000x32, .f32⟩
  | .hbm, ⟨12, _⟩ => ⟨S1600000x1, .i32⟩
  | .hbm, ⟨13, _⟩ => ⟨S50000x32, .f32⟩
  | .hbm, ⟨14, _⟩ => ⟨S50000x1, .f32⟩
  | .hbm, ⟨15, _⟩ => ⟨S_, .f32⟩
  | .hbm, ⟨16, _⟩ => ⟨S50000x1, .f32⟩
  | .hbm, ⟨17, _⟩ => ⟨S50000x1, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x32, .f32⟩
  | .hbm, ⟨23, _⟩ => ⟨S50000x32, .f32⟩
  | .hbm, ⟨24, _⟩ => ⟨S_, .f32⟩
  | .hbm, ⟨25, _⟩ => ⟨S_, .f32⟩
  | .hbm, ⟨26, _⟩ => ⟨S50000x32, .i1⟩
  | .hbm, ⟨27, _⟩ => ⟨S50000x32, .f32⟩
  | .hbm, ⟨28, _⟩ => ⟨S50000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S1600000x32, .f32⟩
  | .hbm, ⟨39, _⟩ => ⟨S1600000x1, .f32⟩
  | .hbm, ⟨40, _⟩ => ⟨S_, .f32⟩
  | .hbm, ⟨41, _⟩ => ⟨S50000x32, .f32⟩
  | .hbm, ⟨42, _⟩ => ⟨S1600000x1, .i32⟩
  | .hbm, ⟨43, _⟩ => ⟨S50000x32, .f32⟩
  | .hbm, ⟨44, _⟩ => ⟨S1600000, .f32⟩
  | .hbm, ⟨45, _⟩ => ⟨S_, .f32⟩
  | .hbm, ⟨46, _⟩ => ⟨S50000, .f32⟩
  | .hbm, ⟨47, _⟩ => ⟨S1600000x1, .i32⟩
  | .hbm, ⟨48, _⟩ => ⟨S50000, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .i1⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x32, .f32⟩
  | .hbm, ⟨58, _⟩ => ⟨S50000x32, .f32⟩
  | .hbm, ⟨59, _⟩ => ⟨S50000x32, .i1⟩
  | .hbm, ⟨60, _⟩ => ⟨S50000x32, .f32⟩
  | .hbm, ⟨61, _⟩ => ⟨S128x128, .f32⟩
  | .hbm, ⟨62, _⟩ => ⟨S128x128, .f32⟩
  | .hbm, ⟨63, _⟩ => ⟨S128x32, .f32⟩
  | .hbm, ⟨64, _⟩ => ⟨S32x128, .f32⟩
  | .hbm, ⟨65, _⟩ => ⟨S50000x128, .f32⟩
  | .local _ .vmem, ⟨0, _⟩ => ⟨S16000x32, .f32⟩
  | .local _ .vmem, ⟨1, _⟩ => ⟨S16000x32, .f32⟩
  | .local _ .vmem, ⟨2, _⟩ => ⟨S16000x32, .f32⟩
  | .local _ .vmem, ⟨3, _⟩ => ⟨S16000x32, .f32⟩
  | .local _ .vmem, ⟨4, _⟩ => ⟨S16000x32, .f32⟩
  | .local _ .vmem, ⟨5, _⟩ => ⟨S16000x32, .f32⟩
  | .local _ .vmem, ⟨6, _⟩ => ⟨S16000x1, .f32⟩
  | .local _ .vmem, ⟨7, _⟩ => ⟨S16000x1, .f32⟩
  | .local _ .vmem, ⟨8, _⟩ => ⟨S5000x128, .f32⟩
  | .local _ .vmem, ⟨9, _⟩ => ⟨S5000x128, .f32⟩
  | .local _ .vmem, ⟨10, _⟩ => ⟨S5000x32, .f32⟩
  | .local _ .vmem, ⟨11, _⟩ => ⟨S5000x32, .f32⟩
  | .local _ .vmem, ⟨12, _⟩ => ⟨S128x128, .f32⟩
  | .local _ .vmem, ⟨13, _⟩ => ⟨S32x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  inb_S16000x32_S16000x32_0_0 : ∀ a, (![0, 0] : Fin 2 → Nat) a + S16000x32.size a ≤ S16000x32.size a
  h_S16000x32 : 0 < S16000x32.numel
  shapeCasts_S16000x32_S16000x32 : S16000x32.ShapeCasts S16000x32
  reduces_S16000x32_S16000 : S16000x32.Reduces [1] S16000
  shapeCasts_S16000_S16000x1 : S16000.ShapeCasts S16000x1
  natLt_1_32 : 1 < 32
  broadcasts_S16000x1_S16000x32 : S16000x1.Broadcasts S16000x32
  inb_S16000x1_S16000x1_0_0 : ∀ a, (![0, 0] : Fin 2 → Nat) a + S16000x1.size a ≤ S16000x1.size a
  h_S16000x1 : 0 < S16000x1.numel
  shapeCasts_S1600000x1_S1600000 : S1600000x1.ShapeCasts S1600000
  slices_S128x160_S128x128_0_0 : S128x160.Slices ![0, 0] S128x128
  transposes_S128x128_S128x128_1_0 : S128x128.Transposes [1, 0] S128x128
  slices_S128x160_S128x32_0_128 : S128x160.Slices ![0, 128] S128x32
  transposes_S128x32_S32x128_1_0 : S128x32.Transposes [1, 0] S32x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S1600000x32.size a
  hwx0_0 : ∀ i : grid0.Coords, EltTy.bits .f32 = 32 ∨ (Rect.block (s := S1600000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S1600000x32.size a
  hwx0_1 : ∀ i : grid0.Coords, EltTy.bits .f32 = 32 ∨ (Rect.block (s := S1600000x32) S16000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x32.size a ≤ S1600000x32.size a
  hwx0_2 : ∀ i : grid0.Coords, EltTy.bits .f32 = 32 ∨ (Rect.block (s := S1600000x32) S16000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x1.size a ≤ S1600000x1.size a
  hwx0_3 : ∀ i : grid0.Coords, EltTy.bits .f32 = 32 ∨ (Rect.block (s := S1600000x1) S16000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf

abbrev win0_0 : Pipeline.Window sig grid0 :=
  Pipeline.Window.ofSpec (Memref.whole main_v22) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23_0) S16000x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_1) S16000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000x32 : Shape := ⟨2, ![1600000, 32]⟩
abbrev S1600000 : Shape := ⟨1, ![1600000]⟩
abbrev S128x160 : Shape := ⟨2, ![128, 160]⟩
abbrev S_ : Shape := ⟨0, ![]⟩
abbrev S50000 : Shape := ⟨1, ![50000]⟩
abbrev S1600000x1 : Shape := ⟨2, ![1600000, 1]⟩
abbrev S50000x32 : Shape := ⟨2, ![50000, 32]⟩
abbrev S50000x1 : Shape := ⟨2, ![50000, 1]⟩
abbrev S50000x160 : Shape := ⟨2, ![50000, 160]⟩
abbrev S160x128 : Shape := ⟨2, ![160, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x32, .f32⟩
  | .hbm, ⟨2, _⟩ => ⟨S1600000, .i32⟩
  | .hbm, ⟨3, _⟩ => ⟨S128x160, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S50000, .f32⟩
  | .hbm, ⟨8, _⟩ => ⟨S1600000x1, .i32⟩
  | .hbm, ⟨9, _⟩ => ⟨S50000, .f32⟩
  | .hbm, ⟨10, _⟩ => ⟨S_, .f32⟩
  | .hbm, ⟨11, _⟩ => ⟨S50000x32, .f32⟩
  | .hbm, ⟨12, _⟩ => ⟨S1600000x1, .i32⟩
  | .hbm, ⟨13, _⟩ => ⟨S50000x32, .f32⟩
  | .hbm, ⟨14, _⟩ => ⟨S50000x1, .f32⟩
  | .hbm, ⟨15, _⟩ => ⟨S_, .f32⟩
  | .hbm, ⟨16, _⟩ => ⟨S50000x1, .f32⟩
  | .hbm, ⟨17, _⟩ => ⟨S50000x1, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x32, .f32⟩
  | .hbm, ⟨23, _⟩ => ⟨S50000x32, .f32⟩
  | .hbm, ⟨24, _⟩ => ⟨S_, .f32⟩
  | .hbm, ⟨25, _⟩ => ⟨S_, .f32⟩
  | .hbm, ⟨26, _⟩ => ⟨S50000x32, .i1⟩
  | .hbm, ⟨27, _⟩ => ⟨S50000x32, .f32⟩
  | .hbm, ⟨28, _⟩ => ⟨S50000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S1600000, .f32⟩
  | .hbm, ⟨41, _⟩ => ⟨S1600000x32, .f32⟩
  | .hbm, ⟨42, _⟩ => ⟨S_, .f32⟩
  | .hbm, ⟨43, _⟩ => ⟨S1600000, .f32⟩
  | .hbm, ⟨44, _⟩ => ⟨S1600000, .f32⟩
  | .hbm, ⟨45, _⟩ => ⟨S1600000x32, .f32⟩
  | .hbm, ⟨46, _⟩ => ⟨S_, .f32⟩
  | .hbm, ⟨47, _⟩ => ⟨S1600000, .f32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S_, .f32⟩
  | .hbm, ⟨52, _⟩ => ⟨S1600000, .f32⟩
  | .hbm, ⟨53, _⟩ => ⟨S1600000, .i1⟩
  | .hbm, ⟨54, _⟩ => ⟨S1600000, .f32⟩
  | .hbm, ⟨55, _⟩ => ⟨S1600000x1, .f32⟩
  | .hbm, ⟨56, _⟩ => ⟨S1600000x32, .f32⟩
  | .hbm, ⟨57, _⟩ => ⟨S1600000x32, .f32⟩
  | .hbm, ⟨58, _⟩ => ⟨S_, .f32⟩
  | .hbm, ⟨59, _⟩ => ⟨S50000x32, .f32⟩
  | .hbm, ⟨60, _⟩ => ⟨S1600000x1, .i32⟩
  | .hbm, ⟨61, _⟩ => ⟨S50000x32, .f32⟩
  | .hbm, ⟨62, _⟩ => ⟨S_, .f32⟩
  | .hbm, ⟨63, _⟩ => ⟨S50000, .f32⟩
  | .hbm, ⟨64, _⟩ => ⟨S1600000x1, .i32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .i1⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x32, .f32⟩
  | .hbm, ⟨75, _⟩ => ⟨S50000x32, .f32⟩
  | .hbm, ⟨76, _⟩ => ⟨S50000x32, .i1⟩
  | .hbm, ⟨77, _⟩ => ⟨S50000x32, .f32⟩
  | .hbm, ⟨78, _⟩ => ⟨S50000x160, .f32⟩
  | .hbm, ⟨79, _⟩ => ⟨S160x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_v25 : Ref sig .tc := ⟨.hbm, 44, rfl⟩
abbrev main_call2_v0 : Ref sig .tc := ⟨.hbm, 45, rfl⟩
abbrev main_call2_cst : Ref sig .tc := ⟨.hbm, 46, rfl⟩
abbrev main_call2_v1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call3_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  reducesTo_S1600000x32_S1600000_d1 : S1600000x32.ReducesTo [1] S1600000
  h_S_ : 0 < S_.numel
  bcast_S1600000x1_S1600000x32_0_1 : S1600000x1.BroadcastsInDim S1600000x32 (![0, 1] : Fin 2 → Fin S1600000x32.rank)
  concatenates_S50000x128_S50000x32_S50000x160_d1 : Shape.Concatenates [S50000x128, S50000x32] S50000x160 1
  transposes_S128x160_S160x128_1_0 : S128x160.Transposes [1, 0] S160x128
  scatter_S50000_S1600000x1_S1600000_n_0_0_1_wf : ScatterDims.WF S50000 S1600000x1 S1600000 [] [0] [0] 1
  scatter_S50000x32_S1600000x1_S1600000x32_1_0_0_1_wf : ScatterDims.WF S50000x32 S1600000x1 S1600000x32 [1] [0] [0] 1
  gather_S50000x32_S1600000x1_S1600000x32_1_0_n_n_0_1_132_wf : GatherDims.WF S50000x32 S1600000x1 S1600000x32 [1] [0] [] [0] [] 1 ![1, 32]
  dot_S50000x160_S160x128_S50000x128_1_0_0_1_n_n_wf : DotDims.WF S50000x160 S160x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf

class Facts : Prop extends Facts₀ where

variable [Facts]
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.HostReads.lean ====
import proofs.«142974_j48077863911783_1_alg».proof.Proof.Gen.KernelIdeal.Frame
import proofs.«142974_j48077863911783_1_alg».proof.Proof.RefRead
import proofs.«142974_j48077863911783_1_alg».proof.Proof.LibTRef
import Idealize.ShloMosaic.Lib.StableHlo.Run

set_option maxRecDepth 16384

/-!
# The host operations between the launch, the two regions and the return, read back

Every buffer a region reads is a fixed composition of host operations applied to the argument arrays (and, after the
first region, to that region's two outputs). The reference applies the same operations in the same order, so each such
buffer is one of the reference's stages of the same arguments; what differs between the two programs is only what the
first region's outputs and the last product are, and those are taken here as hypotheses.
-/

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

set_option maxHeartbeats 4000000 in
/-- The first region's first operand is the gathered table of per-node means, the reference's stage of the same name. -/
theorem W3_v22 (c : Dev nD) :
    W3 m ρ c (Proc.devRef .tc main_v22) = Cert.ReferenceIdeal.PRead.val_main_v22 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v22) = _
  simp only [hostOps0, hostOps0_1, hostOps0_2]
  after_results_simp
  simp only [TRef.ofBuf_toBuf]
  rfl

set_option maxHeartbeats 4000000 in
/-- The table of per-node means itself. -/
theorem W3_v15 (c : Dev nD) :
    W3 m ρ c (Proc.devRef .tc main_v15) = Cert.ReferenceIdeal.PRead.val_main_v15 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v15) = _
  simp only [hostOps0, hostOps0_1, hostOps0_2]
  after_results_simp
  simp only [TRef.ofBuf_toBuf]
  rfl

set_option maxHeartbeats 4000000 in
/-- No host operation before the first region writes an argument. -/
theorem W3_args (c : Dev nD) :
    W3 m ρ c (Proc.devRef .tc main_arg0) = (m ((c : Thread nD τ).loc main_arg0)) ∧ W3 m ρ c (Proc.devRef .tc main_arg1) = (m ((c : Thread nD τ).loc main_arg1))
    ∧ W3 m ρ c (Proc.devRef .tc main_arg2) = (m ((c : Thread nD τ).loc main_arg2)) ∧ W3 m ρ c (Proc.devRef .tc main_arg3) = (m ((c : Thread nD τ).loc main_arg3)) := by
  refine ⟨?_, ?_, ?_, ?_⟩
  all_goals
    show StableHlo.after hostOps0_2 (StableHlo.after hostOps0_1 (StableHlo.after hostOps0 (W0 m ρ c))) (Proc.devRef .tc _) = _
    simp only [hostOps0, hostOps0_1, hostOps0_2]
    after_results_simp

/-! ## Between the regions -/

/-- The first region writes only its two outputs: the arguments it does not stage and the table of means pass through. -/
theorem W4_keeps (c : Dev nD) :
    W4 m ρ c (Proc.devRef .tc main_arg0) = (m ((c : Thread nD τ).loc main_arg0)) ∧ W4 m ρ c (Proc.devRef .tc main_arg2) = (m ((c : Thread nD τ).loc main_arg2))
    ∧ W4 m ρ c (Proc.devRef .tc main_arg3) = (m ((c : Thread nD τ).loc main_arg3))
    ∧ W4 m ρ c (Proc.devRef .tc main_v15) = Cert.ReferenceIdeal.PRead.val_main_v15 (F := F) (m ((c : Thread nD τ).loc main_arg1)) (m ((c : Thread nD τ).loc main_arg2)) := by
  obtain ⟨a0, -, a2, a3⟩ := W3_args m ρ c
  exact ⟨(W4_of_ne m ρ c main_arg0 (by decide)).trans a0, (W4_of_ne m ρ c main_arg2 (by decide)).trans a2,
    (W4_of_ne m ρ c main_arg3 (by decide)).trans a3, (W4_of_ne m ρ c main_v15 (by decide)).trans (W3_v15 m ρ c)⟩

set_option maxHeartbeats 4000000 in
/-- The second region's second operand: when the first region's outputs are the reference's masked features and
    column of 0/1 numbers, and that column read as a vector is the reference's vector of numbers, the filtered mean
    with its fall-back is the reference's stage. -/
theorem W7_v39 (c : Dev nD)
    (hmf : W4 m ρ c (Proc.devRef .tc main_v23_0) = Cert.ReferenceIdeal.PRead.val_main_v34 (F := F) (m ((c : Thread nD τ).loc main_arg1)) (m ((c : Thread nD τ).loc main_arg2)))
    (hmk : W4 m ρ c (Proc.devRef .tc main_v23_1) = Cert.ReferenceIdeal.PRead.val_main_v32 (F := F) (m ((c : Thread nD τ).loc main_arg1)) (m ((c : Thread nD τ).loc main_arg2)))
    (hvec : shapeCast S1600000 (Cert.ReferenceIdeal.PRead.val_main_v32 (F := F) (m ((c : Thread nD τ).loc main_arg1)) (m ((c : Thread nD τ).loc main_arg2))) shapeCasts_S1600000x1_S1600000
      = Cert.ReferenceIdeal.PRead.val_main_v31 (F := F) (m ((c : Thread nD τ).loc main_arg1)) (m ((c : Thread nD τ).loc main_arg2))) :
    W7 m ρ c (Proc.devRef .tc main_v39) = Cert.ReferenceIdeal.PRead.val_main_v49 (F := F) (m ((c : Thread nD τ).loc main_arg1)) (m ((c : Thread nD τ).loc main_arg2)) := by
  obtain ⟨-, a2, -, a15⟩ := W4_keeps m ρ c
  show StableHlo.after hostOps1_2 (StableHlo.after hostOps1_1 (StableHlo.after hostOps1 (W4 m ρ c))) (Proc.devRef .tc main_v39) = _
  simp only [hostOps1, hostOps1_1, hostOps1_2]
  after_results_simp
  simp only [TRef.ofBuf_toBuf]
  rw [hmf, hmk, a2, a15]
  have hv : (fun i => shapeCast main_v27.ty.shape (Cert.ReferenceIdeal.PRead.val_main_v32 (F := F) (m ((c : Thread nD τ).loc main_arg1)) (m ((c : Thread nD τ).loc main_arg2))) shapeCasts_S1600000x1_S1600000 i)
      = Cert.ReferenceIdeal.PRead.val_main_v31 (F := F) (m ((c : Thread nD τ).loc main_arg1)) (m ((c : Thread nD τ).loc main_arg2)) := hvec
  rw [hv]
  rfl

/-! ## The second region's other operands -/

set_option maxHeartbeats 4000000 in
/-- Its first operand is the node features, its third and fourth the two column ranges of the weights, transposed. -/
theorem W7_rest (c : Dev nD) :
    W7 m ρ c (Proc.devRef .tc main_arg0) = (m ((c : Thread nD τ).loc main_arg0))
    ∧ W7 m ρ c (Proc.devRef .tc main_v41)
      = transpose S128x128 [1, 0] (extractStridedSlice S128x128 ![0, 0] (m ((c : Thread nD τ).loc main_arg3)) slices_S128x160_S128x128_0_0) transposes_S128x128_S128x128_1_0
    ∧ W7 m ρ c (Proc.devRef .tc main_v43)
      = transpose S32x128 [1, 0] (extractStridedSlice S128x32 ![0, 128] (m ((c : Thread nD τ).loc main_arg3)) slices_S128x160_S128x32_0_128) transposes_S128x32_S32x128_1_0 := by
  obtain ⟨a0, -, a3, -⟩ := W4_keeps m ρ c
  refine ⟨?_, ?_, ?_⟩
  all_goals
    show StableHlo.after hostOps1_2 (StableHlo.after hostOps1_1 (StableHlo.after hostOps1 (W4 m ρ c))) (Proc.devRef .tc _) = _
    simp only [hostOps1, hostOps1_1, hostOps1_2]
    after_results_simp
    first | rw [a0] | rw [a3]

end Cert.KernelIdeal.Host
end
-- ==== Proof.Region0.lean ====
import proofs.«142974_j48077863911783_1_alg».proof.Proof.Gen.KernelIdeal.Frame
import Idealize.ShloMosaic.Lib.Pipeline.Value
import Idealize.ShloMosaic.Lib.ValueIdx
import Idealize.ShloMosaic.PureOps.Ideal.Laws

set_option maxRecDepth 16384

/-!
# The first region: per edge, is the cosine of two 32-vectors below one half?

For each edge (a row) the body forms the three dot products `⟨p, f⟩`, `⟨p, p⟩`, `⟨f, f⟩` of the row `p` of the gathered
table and the row `f` of the edge features, the quotient `⟨p, f⟩ / (√⟨p, p⟩ · √⟨f, f⟩)`, and the bit "the quotient is
below 1/2", written as the number 0 or 1. One output is that number per edge, the other the edge's features times it.
A row of either output depends on the same row of the two inputs only, and the hundred row blocks tile the arrays, so
after the region each output array is that function, row by row, of the two arrays the region finds.
-/

noncomputable section

namespace Cert.KernelIdeal.R0

open Cert.KernelIdeal Cert.KernelIdeal.Gen
open Idealize.ShloMosaic Idealize.ShloMosaic.TcCoe Idealize.SL.Sem
open Idealize.ShloMosaic.Pipeline (Dat)
open ValueIdx (ix1 ix2)

/-! ## The specification -/

/-- The dot product of row `r` of two arrays of 32 columns. -/
def rowDot {R : Nat} (a b : (⟨2, ![R, 32]⟩ : Shape).Idx → EReal) (r : Fin R) : EReal :=
  ∑ k : Fin 32, a (ix2 r k) * b (ix2 r k)

/-- The quotient of the mixed dot product by the product of the two roots, at row `r`. -/
def cosRow {R : Nat} (a b : (⟨2, ![R, 32]⟩ : Shape).Idx → EReal) (r : Fin R) : EReal :=
  Ideal.div (rowDot a b r) (Ideal.sqrt (rowDot a a r) * Ideal.sqrt (rowDot b b r))

/-- The bit: that quotient is below one half. -/
def belowHalf {R : Nat} (a b : (⟨2, ![R, 32]⟩ : Shape).Idx → EReal) (r : Fin R) : BitVec 1 :=
  Ideal.cmp .olt (cosRow a b r) (Ideal.ofBits .f32 0x3F000000#32)

/-- The bit as the number 0 or 1. -/
def maskRow {R : Nat} (a b : (⟨2, ![R, 32]⟩ : Shape).Idx → EReal) (r : Fin R) : EReal :=
  (((belowHalf a b r).toNat : ℝ) : EReal)

/-- The column of those numbers. -/
def maskCol {R : Nat} (a b : (⟨2, ![R, 32]⟩ : Shape).Idx → EReal) : (⟨2, ![R, 1]⟩ : Shape).Idx → EReal :=
  fun i => maskRow a b ⟨(i 0).val, (i 0).isLt⟩

/-- The second array, each row times its number. -/
def maskedFeat {R : Nat} (a b : (⟨2, ![R, 32]⟩ : Shape).Idx → EReal) : (⟨2, ![R, 32]⟩ : Shape).Idx → EReal :=
  fun i => b i * maskRow a b ⟨(i 0).val, (i 0).isLt⟩

/-- The number at a row depends on that row of the two arrays only. -/
theorem maskRow_congr {R R' : Nat} (a b : (⟨2, ![R, 32]⟩ : Shape).Idx → EReal) (a' b' : (⟨2, ![R', 32]⟩ : Shape).Idx → EReal)
    (r : Fin R) (r' : Fin R') (ha : ∀ k, a (ix2 r k) = a' (ix2 r' k)) (hb : ∀ k, b (ix2 r k) = b' (ix2 r' k)) :
    maskRow a b r = maskRow a' b' r' := by
  unfold maskRow belowHalf cosRow rowDot
  simp only [ha, hb]

/-! ## The body's results at an index -/

/-- A one-bit word widened to 32 bits reads, signed, as the bit. -/
theorem toInt_setWidth (b : BitVec 1) : (b.setWidth 32).toInt = (b.toNat : ℤ) := by decide +revert

/-- The lane sum of a product of two blocks, at row `r`, is the rows' dot product. -/
theorem laneSum_apply (a b : FVec Ideal S16000x32 .f32) (r : Fin 16000) :
    multiReduction .add [1] S16000 (mulf a b) 0x00000000#32 reduces_S16000x32_S16000 (.inl rfl) rfl (ix1 r) = rowDot (R := 16000) a b r := by
  refine (Ideal.multiReduction_add_single (mulf a b) 0x00000000#32 reduces_S16000x32_S16000 (.inl rfl) rfl (ix1 r)).trans ?_
  unfold rowDot
  refine Finset.sum_congr rfl fun k _ => ?_
  have e : reduces_S16000x32_S16000.lift (ix1 r) k = ix2 r (⟨k.val, k.isLt⟩ : Fin 32) := funext fun c => Fin.ext (by
    match c with
    | ⟨0, _⟩ => rfl
    | ⟨1, _⟩ => rfl)
  rw [e]; rfl

/-- A vector of 16000 entries seen as a column: entry `(r, 0)` is entry `r`. -/
theorem col_apply (v : FVec Ideal S16000 .f32) (y : S16000x1.Idx) :
    shapeCast S16000x1 v shapeCasts_S16000_S16000x1 y = v (ix1 ⟨(y 0).val, (y 0).isLt⟩) := by
  refine shapeCast_apply _ _ y _ ?_
  rw [Shape.rowMajor_val_two, Shape.rowMajor_val_one]
  have : (y 1).val < 1 := (y 1).isLt
  show (y 0).val = (y 0).val * 1 + (y 1).val
  omega

/-- The body's column of numbers, entry by entry. -/
theorem pay1_eq (v0 v2 : Vec Ideal S16000x32 .f32) : k0_pay1 v0 v2 = maskCol (R := 16000) v0 v2 := by
  funext y
  unfold k0_pay1
  simp only [shapeCast_self]
  show FloatOps.sitofp .f32 ((FloatOps.cmpf .olt (FloatOps.divf _ (FloatOps.mulf (FloatOps.sqrt _) (FloatOps.sqrt _))) _).setWidth 32) = _
  rw [col_apply, col_apply, col_apply, laneSum_apply, laneSum_apply, laneSum_apply]
  show (((BitVec.setWidth 32 (belowHalf (R := 16000) v0 v2 ⟨(y 0).val, (y 0).isLt⟩)).toInt : ℝ) : EReal) = (((belowHalf (R := 16000) v0 v2 ⟨(y 0).val, (y 0).isLt⟩).toNat : ℝ) : EReal)
  rw [toInt_setWidth, Int.cast_natCast]

/-- A column spread over 32 lanes: entry `(r, k)` is the column's entry `(r, 0)`. -/
theorem spread_apply (v : FVec Ideal S16000x1 .f32) (j : S16000x32.Idx) :
    broadcastTo S16000x32 v broadcasts_S16000x1_S16000x32 j = v (ix2 ⟨(j 0).val, (j 0).isLt⟩ (0 : Fin 1)) := by
  refine broadcastTo_apply _ _ j _ fun a => ?_
  match a with
  | ⟨0, _⟩ => show (j 0).val = if (16000 : Nat) = 1 then 0 else (j 0).val; rw [if_neg (by decide)]
  | ⟨1, _⟩ => show (0 : Nat) = if (1 : Nat) = 1 then 0 else (j 1).val; rw [if_pos rfl]

/-- The body's second store, entry by entry. -/
theorem pay2_eq (v0 v2 : Vec Ideal S16000x32 .f32) : k0_pay2 v0 v2 = maskedFeat (R := 16000) v0 v2 := by
  funext j
  unfold k0_pay2
  show v2 j * broadcastTo S16000x32 (k0_pay1 v0 v2) broadcasts_S16000x1_S16000x32 j = _
  rw [spread_apply, pay1_eq]
  rfl

/-! ## From the blocks to the arrays -/

section Array

-- the contents the region finds, a parameter
variable (V : (c : Dev nD) → (b : Ref sig .tc) → Buf (Elt Ideal) ((c : Thread nD τ).loc b))

theorem hz : (![0, 0] : Fin 2 → Nat) = fun _ => 0 := funext fun a => by
  match a with
  | ⟨0, _⟩ => rfl
  | ⟨1, _⟩ => rfl

/-- The two arrays the region reads, by their literal types: the gathered table and the edge features. -/
abbrev pArr (c : Dev nD) : (⟨2, ![1600000, 32]⟩ : Shape).Idx → EReal := V c main_v22
abbrev fArr (c : Dev nD) : (⟨2, ![1600000, 32]⟩ : Shape).Idx → EReal := V c main_arg1

/-- The printed index maps over the hundred grid points: point `t` takes row block `t` of every window. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point `t`'s block of the gathered table is rows `16000 t … 16000 t + 15999` of the array. -/
theorem p_blk (c : Dev nD) (t : Fin cfg0.N) (y : (⟨2, ![16000, 32]⟩ : Shape).Idx) (i : (⟨2, ![1600000, 32]⟩ : Shape).Idx)
    (h0 : (i 0).val = 16000 * t.val + (y 0).val) (h1 : (i 1).val = (y 1).val) :
    (iblk0 V c 0 t : (⟨2, ![16000, 32]⟩ : Shape).Idx → EReal) y = pArr V c i := by
  obtain ⟨e0, e1, -⟩ := idx_facts t
  unfold iblk0
  rw [View.read_apply]
  show V c main_v22 _ = V c main_v22 _
  congr 1
  funext a
  apply Fin.ext
  match a with
  | ⟨0, _⟩ => show win0_0.index t 0 * 16000 + 1 * (y 0).val = (i 0).val; rw [e0, h0]; omega
  | ⟨1, _⟩ => show win0_0.index t 1 * 32 + 1 * (y 1).val = (i 1).val; rw [e1, h1]; omega

/-- The same rows of the edge features. -/
theorem f_blk (c : Dev nD) (t : Fin cfg0.N) (y : (⟨2, ![16000, 32]⟩ : Shape).Idx) (i : (⟨2, ![1600000, 32]⟩ : Shape).Idx)
    (h0 : (i 0).val = 16000 * t.val + (y 0).val) (h1 : (i 1).val = (y 1).val) :
    (iblk0 V c 1 t : (⟨2, ![16000, 32]⟩ : Shape).Idx → EReal) y = fArr V c i := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 16000 + 1 * (y 0).val = (i 0).val; rw [e0, h0]; omega
  | ⟨1, _⟩ => show win0_1.index t 1 * 32 + 1 * (y 1).val = (i 1).val; rw [e1, h1]; omega

/-- The number at a row of a block is the number at that row of the arrays. -/
theorem maskRow_blk (c : Dev nD) (t : Fin cfg0.N) (r : Fin 16000) (r' : Fin 1600000) (h : r'.val = 16000 * t.val + r.val) :
    maskRow (R := 16000) (iblk0 V c 0 t) (iblk0 V c 1 t) r = maskRow (R := 1600000) (pArr V c) (fArr V c) r' :=
  maskRow_congr _ _ _ _ r r' (fun k => p_blk V c t _ _ h rfl) (fun k => f_blk V c t _ _ h rfl)

/-- What point `t` writes back to the first output is block `t` of the features times their numbers. -/
theorem flushed2_eq (c : Dev nD) (t : Fin cfg0.N) :
    (dat0 V c).flushed 2 t = ((cfg0.win 2).blk t).view.read (Elt Ideal) (maskedFeat (R := 1600000) (pArr V c) (fArr V c)) := by
  show (cfg0.win 2).cut (grid0.coords t) ((dat0 V c).after 2 t) = _
  rw [after0_2]
  unfold out0_2
  rw [View.canon_unit_zero hz]
  simp only [View.ld_unit_zero (S := S16000x32) hz]
  rw [pay2_eq]
  obtain ⟨-, -, -, -, e0, e1, -⟩ := idx_facts t
  funext j
  show maskedFeat (R := 16000) (iblk0 V c 0 t) (iblk0 V c 1 t) j
    = maskedFeat (R := 1600000) (pArr V c) (fArr V c) (((cfg0.win 2).blk t).view.emb j)
  have r0 : ((((cfg0.win 2).blk t).view.emb j) 0).val = 16000 * t.val + (j 0).val := by
    show win0_2.index t 0 * 16000 + 1 * (j 0).val = _; rw [e0]; omega
  have r1 : ((((cfg0.win 2).blk t).view.emb j) 1).val = (j 1).val := by
    show win0_2.index t 1 * 32 + 1 * (j 1).val = _; rw [e1]; omega
  unfold maskedFeat
  exact congrArg₂ (· * ·) (f_blk V c t _ _ r0 r1) (maskRow_blk V c t _ _ r0)

/-- And to the second output, block `t` of the column of numbers. -/
theorem flushed3_eq (c : Dev nD) (t : Fin cfg0.N) :
    (dat0 V c).flushed 3 t = ((cfg0.win 3).blk t).view.read (Elt Ideal) (maskCol (R := 1600000) (pArr V c) (fArr V c)) := by
  show (cfg0.win 3).cut (grid0.coords t) ((dat0 V c).after 3 t) = _
  rw [after0_3]
  unfold out0_3
  rw [View.canon_unit_zero hz]
  simp only [View.ld_unit_zero (S := S16000x32) hz]
  rw [pay1_eq]
  obtain ⟨-, -, -, -, -, -, e0, e1⟩ := idx_facts t
  funext j
  show maskCol (R := 16000) (iblk0 V c 0 t) (iblk0 V c 1 t) j
    = maskCol (R := 1600000) (pArr V c) (fArr V c) (((cfg0.win 3).blk t).view.emb j)
  have r0 : ((((cfg0.win 3).blk t).view.emb j) 0).val = 16000 * t.val + (j 0).val := by
    show win0_3.index t 0 * 16000 + 1 * (j 0).val = _; rw [e0]; omega
  unfold maskCol
  exact maskRow_blk V c t _ _ r0

/-- An index of the first output lies in point `t`'s block iff its row lies among that block's rows. -/
theorem mem_blk2 (t : Fin cfg0.N) (i : S1600000x32.Idx) :
    i ∈ ((cfg0.win 2).blk t).view.set ↔ ∀ a : Fin 2, win0_2.index t a * S16000x32.size a ≤ (i a).val ∧ (i a).val < win0_2.index t a * S16000x32.size a + S16000x32.size a := by
  show i ∈ ((View.whole main_v23_0).slice (win0_2.rect t)).set ↔ _
  rw [View.set_slice_whole, Rect.mem_set_unit]
  exact Iff.rfl

theorem mem_blk3 (t : Fin cfg0.N) (i : S1600000x1.Idx) :
    i ∈ ((cfg0.win 3).blk t).view.set ↔ ∀ a : Fin 2, win0_3.index t a * S16000x1.size a ≤ (i a).val ∧ (i a).val < win0_3.index t a * S16000x1.size a + S16000x1.size a := by
  show i ∈ ((View.whole main_v23_1).slice (win0_3.rect t)).set ↔ _
  rw [View.set_slice_whole, Rect.mem_set_unit]
  exact Iff.rfl

/-- The hundred row blocks tile each output: row `r` lies in block `r / 16000`. -/
theorem cover2 (i : S1600000x32.Idx) : ∃ t : Fin cfg0.N, (cfg0.win 2).flush t = true ∧ i ∈ ((cfg0.win 2).blk t).view.set := by
  have hi0 : (i 0).val < 1600000 := (i 0).isLt
  have hi1 : (i 1).val < 32 := (i 1).isLt
  have hN : cfg0.N = 100 := N_0
  let t : Fin cfg0.N := ⟨(i 0).val / 16000, by rw [hN]; omega⟩
  obtain ⟨-, -, -, -, e0, e1, -⟩ := idx_facts t
  have ht : t.val = (i 0).val / 16000 := rfl
  refine ⟨t, flush0_2 t, ?_⟩
  rw [mem_blk2]
  intro a
  match a with
  | ⟨0, _⟩ => show win0_2.index t 0 * 16000 ≤ (i 0).val ∧ (i 0).val < win0_2.index t 0 * 16000 + 16000; rw [e0, ht]; omega
  | ⟨1, _⟩ => show win0_2.index t 1 * 32 ≤ (i 1).val ∧ (i 1).val < win0_2.index t 1 * 32 + 32; rw [e1]; omega

theorem cover3 (i : S1600000x1.Idx) : ∃ t : Fin cfg0.N, (cfg0.win 3).flush t = true ∧ i ∈ ((cfg0.win 3).blk t).view.set := by
  have hi0 : (i 0).val < 1600000 := (i 0).isLt
  have hi1 : (i 1).val < 1 := (i 1).isLt
  have hN : cfg0.N = 100 := N_0
  let t : Fin cfg0.N := ⟨(i 0).val / 16000, by rw [hN]; omega⟩
  obtain ⟨-, -, -, -, -, -, e0, e1⟩ := idx_facts t
  have ht : t.val = (i 0).val / 16000 := rfl
  refine ⟨t, flush0_3 t, ?_⟩
  rw [mem_blk3]
  intro a
  match a with
  | ⟨0, _⟩ => show win0_3.index t 0 * 16000 ≤ (i 0).val ∧ (i 0).val < win0_3.index t 0 * 16000 + 16000; rw [e0, ht]; omega
  | ⟨1, _⟩ => show win0_3.index t 1 * 1 ≤ (i 1).val ∧ (i 1).val < win0_3.index t 1 * 1 + 1; rw [e1]; omega

/-- After the region the first output holds the features times their numbers, -/
theorem final2 (c : Dev nD) : (dat0 V c).arrAt 2 cfg0.N = maskedFeat (R := 1600000) (pArr V c) (fArr V c) :=
  (dat0 V c).arrAt_eq_of_cover 2 _ (fun t _ => flushed2_eq V c t) cover2

/-- and the second the column of numbers. -/
theorem final3 (c : Dev nD) : (dat0 V c).arrAt 3 cfg0.N = maskCol (R := 1600000) (pArr V c) (fArr V c) :=
  (dat0 V c).arrAt_eq_of_cover 3 _ (fun t _ => flushed3_eq V c t) cover3

end Array

end Cert.KernelIdeal.R0

end
-- ==== Proof.Region1.lean ====
import proofs.«142974_j48077863911783_1_alg».proof.Proof.Gen.KernelIdeal.Frame
import Idealize.ShloMosaic.Lib.Pipeline.Value
import Idealize.ShloMosaic.Lib.ValueIdx
import Idealize.ShloMosaic.PureOps.Ideal.Laws

/-!
# The second region: a row block of the output is two matrix products added

At the exact instance the body's changes of float format are the identity, so at a grid point the body leaves, in
the output's block, row by row, `h · wh + a · we`: the point's 5000 rows of `h` (128 wide) against the whole
`wh` (128 × 128) plus the same rows of `a` (32 wide) against the whole `we` (32 × 128). The ten row blocks tile
the 50000 × 128 array, so after the region the array is that function of the four arrays the region finds.
-/

set_option maxRecDepth 16384

noncomputable section

namespace Cert.KernelIdeal.R1

open Cert.KernelIdeal Cert.KernelIdeal.Gen
open Idealize.ShloMosaic Idealize.ShloMosaic.TcCoe Idealize.SL.Sem
open Idealize.ShloMosaic.Pipeline (Dat)

/-! ## The specification -/

/-- Entry `(n, k)` of an array with 128 columns, from an output index `i = (n, j)` and `k`. -/
abbrev rowIdx128 {R : Nat} (i : (⟨2, ![R, 128]⟩ : Shape).Idx) (k : Fin 128) : (⟨2, ![R, 128]⟩ : Shape).Idx := fun a => match a with
  | ⟨0, _⟩ => ⟨(i 0).val, (i 0).isLt⟩
  | ⟨1, _⟩ => ⟨k.val, k.isLt⟩
/-- Entry `(k, j)` of the 128 × 128 factor. -/
abbrev colIdx128 {R : Nat} (i : (⟨2, ![R, 128]⟩ : Shape).Idx) (k : Fin 128) : S128x128.Idx := fun a => match a with
  | ⟨0, _⟩ => ⟨k.val, k.isLt⟩
  | ⟨1, _⟩ => ⟨(i 1).val, (i 1).isLt⟩
/-- Entry `(n, k)` of an array with 32 columns. -/
abbrev rowIdx32 {R : Nat} (i : (⟨2, ![R, 128]⟩ : Shape).Idx) (k : Fin 32) : (⟨2, ![R, 32]⟩ : Shape).Idx := fun a => match a with
  | ⟨0, _⟩ => ⟨(i 0).val, (i 0).isLt⟩
  | ⟨1, _⟩ => ⟨k.val, k.isLt⟩
/-- Entry `(k, j)` of the 32 × 128 factor. -/
abbrev colIdx32 {R : Nat} (i : (⟨2, ![R, 128]⟩ : Shape).Idx) (k : Fin 32) : S32x128.Idx := fun a => match a with
  | ⟨0, _⟩ => ⟨k.val, k.isLt⟩
  | ⟨1, _⟩ => ⟨(i 1).val, (i 1).isLt⟩

/-- `h · wh + a · we`, entry by entry, over arrays of `R` rows. -/
def twoProducts {R : Nat} (h : (⟨2, ![R, 128]⟩ : Shape).Idx → EReal) (a : (⟨2, ![R, 32]⟩ : Shape).Idx → EReal)
    (wh : S128x128.Idx → EReal) (we : S32x128.Idx → EReal) : (⟨2, ![R, 128]⟩ : Shape).Idx → EReal := fun i =>
  (∑ k : Fin 128, h (rowIdx128 i k) * wh (colIdx128 i k)) + ∑ k : Fin 32, a (rowIdx32 i k) * we (colIdx32 i k)

/-! ## The body's result at an index -/

theorem lhs_d1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_d1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_d1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_d1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs_d2_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem lhs_d2_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem rhs_d2_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem rhs_d2_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- One matrix product of the body at an index: the sum over the contracted axis of row `i 0` of the left factor
    against column `i 1` of the right. -/
theorem mm_d1_apply (l : FVec Ideal S5000x128 .bf16) (r : FVec Ideal S128x128 .bf16) (i : S5000x128.Idx) :
    FloatOps.matmul dot_S5000x128_S128x128_S5000x128_1_0_0_1_n_n none l r (constant S5000x128 .f32 0x00000000#32) i
      = ∑ k : Fin 128, l (rowIdx128 i k) * r (colIdx128 i k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowIdx128 i k := funext fun a => Fin.ext (by
    match a with
    | ⟨0, _⟩ => exact lhs_d1_0 _ _
    | ⟨1, _⟩ => exact (lhs_d1_1 _ _).trans hk)
  have er : dot_S5000x128_S128x128_S5000x128_1_0_0_1_n_n.rhsIdx i ((ValueIdx.contrEquiv1 dot_S5000x128_S128x128_S5000x128_1_0_0_1_n_n 128 rfl rfl).symm k) = colIdx128 i k := funext fun a => Fin.ext (by
    match a with
    | ⟨0, _⟩ => exact (rhs_d1_0 _ _).trans hk
    | ⟨1, _⟩ => exact rhs_d1_1 _ _)
  rw [el, er]

/-- One matrix product of the body at an index: the sum over the contracted axis of row `i 0` of the left factor
    against column `i 1` of the right. -/
theorem mm_d2_apply (l : FVec Ideal S5000x32 .bf16) (r : FVec Ideal S32x128 .bf16) (i : S5000x128.Idx) :
    FloatOps.matmul dot_S5000x32_S32x128_S5000x128_1_0_0_1_n_n none l r (constant S5000x128 .f32 0x00000000#32) i
      = ∑ k : Fin 32, l (rowIdx32 i k) * r (colIdx32 i k) := by
  rw [Ideal.matmul_constant_zero_apply, ← Equiv.sum_comp (ValueIdx.contrEquiv1 dot_S5000x32_S32x128_S5000x128_1_0_0_1_n_n 32 rfl rfl).symm]
  refine Finset.sum_congr rfl fun k _ => ?_
  have hk := ValueIdx.contrEquiv1_symm_val dot_S5000x32_S32x128_S5000x128_1_0_0_1_n_n 32 rfl rfl k
  have el : dot_S5000x32_S32x128_S5000x128_1_0_0_1_n_n.lhsIdx i ((ValueIdx.contrEquiv1 dot_S5000x32_S32x128_S5000x128_1_0_0_1_n_n 32 rfl rfl).symm k) = rowIdx32 i k := funext fun a => Fin.ext (by
    match a with
    | ⟨0, _⟩ => exact lhs_d2_0 _ _
    | ⟨1, _⟩ => exact (lhs_d2_1 _ _).trans hk)
  have er : dot_S5000x32_S32x128_S5000x128_1_0_0_1_n_n.rhsIdx i ((ValueIdx.contrEquiv1 dot_S5000x32_S32x128_S5000x128_1_0_0_1_n_n 32 rfl rfl).symm k) = colIdx32 i k := funext fun a => Fin.ext (by
    match a with
    | ⟨0, _⟩ => exact (rhs_d2_0 _ _).trans hk
    | ⟨1, _⟩ => exact rhs_d2_1 _ _)
  rw [el, er]

/-- The body's one store, entry by entry: the two products added. -/
theorem pay_eq (x0 : Vec Ideal S5000x128 .f32) (x1 : Vec Ideal S5000x32 .f32) (x2 : Vec Ideal S128x128 .f32) (x3 : Vec Ideal S32x128 .f32) :
    k1_pay1 x0 x1 x2 x3 = twoProducts (R := 5000) x0 x1 x2 x3 := by
  funext i
  unfold k1_pay1 twoProducts
  simp only [shapeCast_self]
  refine (ValueIdx.addf_apply _ _ i).trans ?_
  simp only [matmul]
  rw [mm_d1_apply, mm_d2_apply]
  rfl

/-! ## From the blocks to the array -/

section Array

-- the contents the region finds, a parameter
variable (V : (c : Dev nD) → (b : Ref sig .tc) → Buf (Elt Ideal) ((c : Thread nD τ).loc b))

theorem hz : (![0, 0] : Fin 2 → Nat) = fun _ => 0 := funext fun a => by
  match a with
  | ⟨0, _⟩ => rfl
  | ⟨1, _⟩ => rfl

/-- The four arrays the region reads, by their literal types. -/
abbrev hArr (c : Dev nD) : (⟨2, ![50000, 128]⟩ : Shape).Idx → EReal := V c main_arg0
abbrev aArr (c : Dev nD) : (⟨2, ![50000, 32]⟩ : Shape).Idx → EReal := V c main_v39
abbrev whArr (c : Dev nD) : S128x128.Idx → EReal := V c main_v41
abbrev weArr (c : Dev nD) : S32x128.Idx → EReal := V c main_v43

/-- The printed index maps over the ten grid points: point `t` takes row block `t` of `h`, of `a` and of the output,
    and the whole of each weight factor. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point `t`'s block of `h` is rows `5000 t … 5000 t + 4999` of the array. -/
theorem h_blk (c : Dev nD) (t : Fin cfg1.N) (y : S5000x128.Idx) (i : (⟨2, ![50000, 128]⟩ : Shape).Idx)
    (h0 : (i 0).val = 5000 * t.val + (y 0).val) (h1 : (i 1).val = (y 1).val) :
    (iblk1 V c 0 t : Vec Ideal S5000x128 .f32) y = hArr V c i := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Point `t`'s block of `a` is the same rows of that array. -/
theorem a_blk (c : Dev nD) (t : Fin cfg1.N) (y : S5000x32.Idx) (i : (⟨2, ![50000, 32]⟩ : Shape).Idx)
    (h0 : (i 0).val = 5000 * t.val + (y 0).val) (h1 : (i 1).val = (y 1).val) :
    (iblk1 V c 1 t : Vec Ideal S5000x32 .f32) y = aArr V c i := by
  obtain ⟨-, -, e0, e1, -⟩ := idx_facts t
  unfold iblk1
  rw [View.read_apply]
  show V c main_v39 _ = V c main_v39 _
  congr 1
  funext a
  apply Fin.ext
  match a with
  | ⟨0, _⟩ => show win1_1.index t 0 * 5000 + 1 * (y 0).val = (i 0).val; rw [e0, h0]; omega
  | ⟨1, _⟩ => show win1_1.index t 1 * 32 + 1 * (y 1).val = (i 1).val; rw [e1, h1]; omega

/-- Every point's block of the first weight factor is the whole factor. -/
theorem wh_blk (c : Dev nD) (t : Fin cfg1.N) (y : S128x128.Idx) :
    (iblk1 V c 2 t : Vec Ideal S128x128 .f32) y = whArr V c y := by
  obtain ⟨-, -, -, -, e0, e1, -⟩ := idx_facts t
  unfold iblk1
  rw [View.read_apply]
  show V c main_v41 _ = V c main_v41 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- And of the second. -/
theorem we_blk (c : Dev nD) (t : Fin cfg1.N) (y : S32x128.Idx) :
    (iblk1 V c 3 t : Vec Ideal S32x128 .f32) y = weArr V c y := by
  obtain ⟨-, -, -, -, -, -, e0, e1, -⟩ := idx_facts t
  unfold iblk1
  rw [View.read_apply]
  show V c main_v43 _ = V c main_v43 _
  congr 1
  funext a
  apply Fin.ext
  match a with
  | ⟨0, _⟩ => show win1_3.index t 0 * 32 + 1 * (y 0).val = (y 0).val; rw [e0]; omega
  | ⟨1, _⟩ => show win1_3.index t 1 * 128 + 1 * (y 1).val = (y 1).val; rw [e1]; omega

/-- What point `t` writes back is block `t` of the two products of the whole arrays: a row of the result reads the
    same row of `h` and of `a` and whole columns of the factors. -/
theorem flushed_eq (c : Dev nD) (t : Fin cfg1.N) :
    (dat1 V c).flushed 4 t = ((cfg1.win 4).blk t).view.read (Elt Ideal)
      (twoProducts (R := 50000) (hArr V c) (aArr V c) (whArr V c) (weArr V c)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x32) hz,
    View.ld_unit_zero (S := S128x128) hz, View.ld_unit_zero (S := S32x128) hz]
  rw [pay_eq]
  obtain ⟨-, -, -, -, -, -, -, -, e0, e1⟩ := idx_facts t
  funext j
  show twoProducts (R := 5000) (iblk1 V c 0 t) (iblk1 V c 1 t) (iblk1 V c 2 t) (iblk1 V c 3 t) j
    = twoProducts (R := 50000) (hArr V c) (aArr V c) (whArr V c) (weArr V c) (((cfg1.win 4).blk t).view.emb j)
  have r0 : ((((cfg1.win 4).blk t).view.emb j) 0).val = 5000 * t.val + (j 0).val := by
    show win1_4.index t 0 * 5000 + 1 * (j 0).val = _; rw [e0]; omega
  have r1 : ((((cfg1.win 4).blk t).view.emb j) 1).val = (j 1).val := by
    show win1_4.index t 1 * 128 + 1 * (j 1).val = _; rw [e1]; omega
  unfold twoProducts
  refine congrArg₂ (· + ·) (Finset.sum_congr rfl fun k _ => ?_) (Finset.sum_congr rfl fun k _ => ?_)
  · refine congrArg₂ (· * ·) (h_blk V c t _ _ r0 rfl) ((wh_blk V c t _).trans (congrArg (whArr V c) ?_))
    funext a; apply Fin.ext
    match a with
    | ⟨0, _⟩ => rfl
    | ⟨1, _⟩ => exact r1.symm
  · refine congrArg₂ (· * ·) (a_blk V c t _ _ r0 rfl) ((we_blk V c t _).trans (congrArg (weArr V c) ?_))
    funext a; apply Fin.ext
    match a with
    | ⟨0, _⟩ => rfl
    | ⟨1, _⟩ => exact r1.symm

/-- An index of the output array lies in point `t`'s block iff its row lies among that block's rows. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- The ten row blocks tile the array: row `r` lies in block `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ => show win1_4.index t 0 * 5000 ≤ (i 0).val ∧ (i 0).val < win1_4.index t 0 * 5000 + 5000; rw [e0, ht]; omega
  | ⟨1, _⟩ => show win1_4.index t 1 * 128 ≤ (i 1).val ∧ (i 1).val < win1_4.index t 1 * 128 + 128; rw [e1]; omega

/-- After the region the output array holds the two products of the arrays the region found. -/
theorem final (c : Dev nD) :
    (dat1 V c).arrAt 4 cfg1.N = twoProducts (R := 50000) (hArr V c) (aArr V c) (whArr V c) (weArr V c) :=
  (dat1 V c).arrAt_eq_of_cover 4 _ (fun t _ => flushed_eq V c t) cover

end Array

end Cert.KernelIdeal.R1

end
-- ==== Proof.Bridge.lean ====
import proofs.«142974_j48077863911783_1_alg».proof.Proof.Region0
import proofs.«142974_j48077863911783_1_alg».proof.Proof.Region1
import proofs.«142974_j48077863911783_1_alg».proof.Proof.RefRead
import Idealize.ShloMosaic.Lib.Pipeline.Value
import Idealize.ShloMosaic.Lib.ValueIdx
import Idealize.ShloMosaic.PureOps.Ideal.Laws

/-!
# The two programs' formulas are the same functions

The reference computes, on the host, per edge the same three dot products, roots, quotient and comparison as the first
region's body, and at the end ONE product of the 160-wide concatenation `[h | a]` with the transposed weights; the
kernel's second region adds two products, over the first 128 and the last 32 columns. A sum over 160 terms is the sum
over its first 128 plus the sum over its last 32, in any commutative monoid, so no finiteness is used.
-/

set_option maxRecDepth 16384

noncomputable section

namespace Cert.Bridge

open Idealize.ShloMosaic Idealize.ShloMosaic.TcCoe Idealize.SL.Sem
open ValueIdx (ix1 ix2)
open Cert.ReferenceIdeal.PRead
open Cert.KernelIdeal.R0 (rowDot cosRow belowHalf maskRow maskCol maskedFeat)
open Cert.KernelIdeal.R1 (twoProducts rowIdx128 colIdx128 rowIdx32 colIdx32)

variable (x0 : (⟨2, ![50000, 128]⟩ : Shape).Idx → EReal) (x1 : (⟨2, ![1600000, 32]⟩ : Shape).Idx → EReal)
  (x2 : (⟨1, ![1600000]⟩ : Shape).Idx → BitVec 32) (x3 : (⟨2, ![128, 160]⟩ : Shape).Idx → EReal)

/-! ## The per-edge number -/

/-- Row `r`, column `k`, the way each of the host's three sums names the entry it adds. -/
theorem e24 (r : Fin 1600000) (k : Fin 32) : idx_main_v24 (ix1 r) k = ix2 r k := funext fun a => Fin.ext (by
  match a with
  | ⟨0, _⟩ => rfl
  | ⟨1, _⟩ => rfl)
theorem ec1 (r : Fin 1600000) (k : Fin 32) : idx_main_call1_v1 (ix1 r) k = ix2 r k := funext fun a => Fin.ext (by
  match a with
  | ⟨0, _⟩ => rfl
  | ⟨1, _⟩ => rfl)
theorem ec2 (r : Fin 1600000) (k : Fin 32) : idx_main_call2_v1 (ix1 r) k = ix2 r k := funext fun a => Fin.ext (by
  match a with
  | ⟨0, _⟩ => rfl
  | ⟨1, _⟩ => rfl)

/-- The host's sum of the mixed products over row `r`, from zero, is the rows' dot product. -/
theorem sum_pf (r : Fin 1600000) :
    val_main_v24 (F := Ideal) x1 x2 (ix1 r) = rowDot (R := 1600000) (val_main_v22 (F := Ideal) x1 x2) x1 r := by
  rw [val_main_v24_apply]
  show Ideal.ofBits .f32 0x00000000#32 + _ = _
  rw [Ideal.ofBits_zero_f32, zero_add]
  unfold rowDot
  refine Finset.sum_congr rfl fun k _ => ?_
  rw [e24 r k, val_main_v23_apply]
  exact Ideal.mulf_def _ _

/-- The sum of squares of the table's row. -/
theorem sum_pp (r : Fin 1600000) :
    val_main_call1_v1 (F := Ideal) x1 x2 (ix1 r) = rowDot (R := 1600000) (val_main_v22 (F := Ideal) x1 x2) (val_main_v22 (F := Ideal) x1 x2) r := by
  rw [val_main_call1_v1_apply]
  show Ideal.ofBits .f32 0x00000000#32 + _ = _
  rw [Ideal.ofBits_zero_f32, zero_add]
  unfold rowDot
  refine Finset.sum_congr rfl fun k _ => ?_
  rw [ec1 r k, val_main_call1_v0_apply]
  exact Ideal.mulf_def _ _

/-- The sum of squares of the features' row. -/
theorem sum_ff (r : Fin 1600000) :
    val_main_call2_v1 (F := Ideal) x1 (ix1 r) = rowDot (R := 1600000) x1 x1 r := by
  rw [val_main_call2_v1_apply]
  show Ideal.ofBits .f32 0x00000000#32 + _ = _
  rw [Ideal.ofBits_zero_f32, zero_add]
  unfold rowDot
  refine Finset.sum_congr rfl fun k _ => ?_
  rw [ec2 r k, val_main_call2_v0_apply]
  exact Ideal.mulf_def _ _

/-- The reference's number of edge `r` is the specification's: the same three dot products, the same roots, quotient
    and comparison (the host's quotient and root are the kernel's at the exact instance), the bit read as 0 or 1. -/
theorem mask_ref (r : Fin 1600000) :
    val_main_v31 (F := Ideal) x1 x2 (ix1 r) = maskRow (R := 1600000) (val_main_v22 (F := Ideal) x1 x2) x1 r := by
  rw [val_main_v31_apply, val_main_v30_apply, val_main_v28_apply, val_main_v27_apply,
    val_main_v25_apply, val_main_v26_apply, sum_pf, sum_pp, sum_ff, val_main_v29_apply]
  unfold maskRow belowHalf cosRow
  rw [val_main_cst_7_apply]
  simp only [Ideal.hostDivf_def, Ideal.mulf_def, Ideal.hostUnary_sqrt_def, Ideal.cmpf_def, Ideal.ofBits_def]
  rfl

/-- So the reference's column of numbers is the specification's, -/
theorem maskCol_ref : maskCol (R := 1600000) (val_main_v22 (F := Ideal) x1 x2) x1 = val_main_v32 (F := Ideal) x1 x2 := by
  funext i
  rw [val_main_v32_apply]
  have e : idx_main_v32 i = ix1 (⟨(i 0).val, (i 0).isLt⟩ : Fin 1600000) := funext fun a => Fin.ext (by
    match a with
    | ⟨0, _⟩ => rfl)
  rw [e, mask_ref]
  rfl

/-- its masked features the specification's, -/
theorem maskedFeat_ref : maskedFeat (R := 1600000) (val_main_v22 (F := Ideal) x1 x2) x1 = val_main_v34 (F := Ideal) x1 x2 := by
  funext i
  rw [val_main_v34_apply, val_main_v33_apply, ← maskCol_ref, Ideal.mulf_def]
  unfold maskedFeat maskCol
  rfl

/-- and the column read as a vector is its vector of numbers. -/
theorem vec_ref (h : Shape.ShapeCasts (⟨2, ![1600000, 1]⟩ : Shape) (⟨1, ![1600000]⟩ : Shape)) :
    shapeCast (⟨1, ![1600000]⟩ : Shape) (val_main_v32 (F := Ideal) x1 x2) h = val_main_v31 (F := Ideal) x1 x2 := by
  funext j
  refine (shapeCast_apply _ _ j (ix2 (⟨(j 0).val, (j 0).isLt⟩ : Fin 1600000) (0 : Fin 1)) ?_).trans ?_
  · rw [Shape.rowMajor_val_two, Shape.rowMajor_val_one]
    show (j 0).val * 1 + 0 = (j 0).val
    omega
  · rw [val_main_v32_apply]
    exact congrArg _ (funext fun a => Fin.ext (by
      match a with
      | ⟨0, _⟩ => rfl))

/-! ## The last product -/

section Product

variable (a : (⟨2, ![50000, 32]⟩ : Shape).Idx → EReal)
  (hs1 : Shape.Slices (⟨2, ![128, 160]⟩ : Shape) ![0, 0] (⟨2, ![128, 128]⟩ : Shape))
  (ht1 : Shape.Transposes (⟨2, ![128, 128]⟩ : Shape) [1, 0] (⟨2, ![128, 128]⟩ : Shape))
  (hs2 : Shape.Slices (⟨2, ![128, 160]⟩ : Shape) ![0, 128] (⟨2, ![128, 32]⟩ : Shape))
  (ht2 : Shape.Transposes (⟨2, ![128, 32]⟩ : Shape) [1, 0] (⟨2, ![32, 128]⟩ : Shape))
  (hc : Shape.Concatenates [(⟨2, ![50000, 128]⟩ : Shape), (⟨2, ![50000, 32]⟩ : Shape)] (⟨2, ![50000, 160]⟩ : Shape) 1)

/-- Entry `(k, j)` of the first 128 columns of the weights, transposed, is the weights' entry `(j, k)`. -/
theorem wh_apply (y : (⟨2, ![128, 128]⟩ : Shape).Idx) (z : (⟨2, ![128, 160]⟩ : Shape).Idx)
    (h0 : (z 0).val = (y 1).val) (h1 : (z 1).val = (y 0).val) :
    transpose (⟨2, ![128, 128]⟩ : Shape) [1, 0] (extractStridedSlice (⟨2, ![128, 128]⟩ : Shape) ![0, 0] x3 hs1) ht1 y = x3 z := by
  refine (transpose_apply [1, 0] _ ht1 y (ix2 (⟨(y 1).val, (y 1).isLt⟩ : Fin 128) (⟨(y 0).val, (y 0).isLt⟩ : Fin 128)) (fun b => by
    match b with
    | ⟨0, _⟩ => rfl
    | ⟨1, _⟩ => rfl)).trans ?_
  refine extractStridedSlice_apply _ x3 hs1 _ z (fun b => ?_)
  match b with
  | ⟨0, _⟩ => show (z 0).val = 0 + (y 1).val; omega
  | ⟨1, _⟩ => show (z 1).val = 0 + (y 0).val; omega

/-- Entry `(k, j)` of the last 32 columns, transposed, is the weights' entry `(j, 128 + k)`. -/
theorem we_apply (y : (⟨2, ![32, 128]⟩ : Shape).Idx) (z : (⟨2, ![128, 160]⟩ : Shape).Idx)
    (h0 : (z 0).val = (y 1).val) (h1 : (z 1).val = 128 + (y 0).val) :
    transpose (⟨2, ![32, 128]⟩ : Shape) [1, 0] (extractStridedSlice (⟨2, ![128, 32]⟩ : Shape) ![0, 128] x3 hs2) ht2 y = x3 z := by
  refine (transpose_apply [1, 0] _ ht2 y (ix2 (⟨(y 1).val, (y 1).isLt⟩ : Fin 128) (⟨(y 0).val, (y 0).isLt⟩ : Fin 32)) (fun b => by
    match b with
    | ⟨0, _⟩ => rfl
    | ⟨1, _⟩ => rfl)).trans ?_
  refine extractStridedSlice_apply _ x3 hs2 _ z (fun b => ?_)
  match b with
  | ⟨0, _⟩ => show (z 0).val = 0 + (y 1).val; omega
  | ⟨1, _⟩ => show (z 1).val = 128 + (y 0).val; omega

/-- The two products added are the one product of the 160-wide concatenation: the sum over 160 columns splits into the
    first 128 and the last 32. (`L k` is entry `(n, k)` of the concatenation, `Z k` entry `(j, k)` of the weights.) -/
theorem product_split (i : (⟨2, ![50000, 128]⟩ : Shape).Idx)
    (L : Fin 160 → (⟨2, ![50000, 160]⟩ : Shape).Idx) (Z : Fin 160 → (⟨2, ![128, 160]⟩ : Shape).Idx)
    (hL0 : ∀ k, (L k 0).val = (i 0).val) (hL1 : ∀ k, (L k 1).val = k.val)
    (hZ0 : ∀ k, (Z k 0).val = (i 1).val) (hZ1 : ∀ k, (Z k 1).val = k.val) :
    twoProducts (R := 50000) x0 a
        (transpose (⟨2, ![128, 128]⟩ : Shape) [1, 0] (extractStridedSlice (⟨2, ![128, 128]⟩ : Shape) ![0, 0] x3 hs1) ht1)
        (transpose (⟨2, ![32, 128]⟩ : Shape) [1, 0] (extractStridedSlice (⟨2, ![128, 32]⟩ : Shape) ![0, 128] x3 hs2) ht2) i
      = ∑ k : Fin 160, concatenate (⟨2, ![50000, 160]⟩ : Shape) 1 [⟨(⟨2, ![50000, 128]⟩ : Shape), x0⟩, ⟨(⟨2, ![50000, 32]⟩ : Shape), a⟩] hc (L k)
          * x3 (Z k) := by
  have split : ∀ f : Fin (128 + 32) → EReal, (∑ k : Fin (128 + 32), f k) = (∑ k : Fin 128, f (Fin.castAdd 32 k)) + ∑ k : Fin 32, f (Fin.natAdd 128 k) :=
    fun f => Fin.sum_univ_add f
  refine Eq.trans ?_ (split _).symm
  unfold twoProducts
  refine congrArg₂ (· + ·) (Finset.sum_congr rfl fun k _ => ?_) (Finset.sum_congr rfl fun k _ => ?_)
  · refine congrArg₂ (· * ·) ?_ ?_
    · exact (concatenate_pair_apply_left 1 x0 a hc (L (Fin.castAdd 32 k)) rfl (rowIdx128 i k) (fun b => by
        match b with
        | ⟨0, _⟩ => exact (hL0 (Fin.castAdd 32 k)).symm
        | ⟨1, _⟩ => exact (hL1 (Fin.castAdd 32 k)).symm)).symm
    · exact wh_apply x3 hs1 ht1 _ _ (hZ0 _) (hZ1 _)
  · refine congrArg₂ (· * ·) ?_ ?_
    · exact (concatenate_pair_apply_right 1 x0 a hc (L (Fin.natAdd 128 k)) rfl rfl (rowIdx32 i k) (fun b hb => by
        match b with
        | ⟨0, _⟩ => exact (hL0 _).symm
        | ⟨1, _⟩ => exact absurd rfl hb) (by
          have := hL1 (Fin.natAdd 128 k)
          show k.val + 128 = (L (Fin.natAdd 128 k) 1).val
          rw [this]; show k.val + 128 = 128 + k.val; omega)).symm
    · exact we_apply x3 hs2 ht2 _ _ (hZ0 _) (hZ1 _)

/-- The kernel's two products of `h`, the filtered means and the two column ranges of the weights are the reference's
    one product of the concatenation with the transposed weights. -/
theorem result_ref :
    twoProducts (R := 50000) x0 (val_main_v49 (F := Ideal) x1 x2)
        (transpose (⟨2, ![128, 128]⟩ : Shape) [1, 0] (extractStridedSlice (⟨2, ![128, 128]⟩ : Shape) ![0, 0] x3 hs1) ht1)
        (transpose (⟨2, ![32, 128]⟩ : Shape) [1, 0] (extractStridedSlice (⟨2, ![128, 32]⟩ : Shape) ![0, 128] x3 hs2) ht2)
      = val_main_v52 (F := Ideal) x0 x1 x2 x3 := by
  funext i
  rw [val_main_v52_apply]
  have e : (∑ k : Fin 160, val_main_v50 (F := Ideal) x0 x1 x2 (lidx_main_v52 i k) * val_main_v51 (F := Ideal) x3 (ridx_main_v52 i k))
      = ∑ k : Fin 160, val_main_v50 (F := Ideal) x0 x1 x2 (lidx_main_v52 i k) * x3 (idx_main_v51 (ridx_main_v52 i k)) :=
    Finset.sum_congr rfl fun k _ => by rw [val_main_v51_apply]
  rw [e]
  unfold val_main_v50
  exact product_split x0 x3 (val_main_v49 (F := Ideal) x1 x2) hs1 ht1 hs2 ht2 _ i (lidx_main_v52 i)
    (fun k => idx_main_v51 (ridx_main_v52 i k)) (fun k => rfl) (fun k => rfl) (fun k => rfl) (fun k => rfl)

end Product

end Cert.Bridge

end
-- ==== Proof.KernelValue.lean ====
import proofs.«142974_j48077863911783_1_alg».proof.Proof.Gen.KernelIdeal.Frame
import proofs.«142974_j48077863911783_1_alg».proof.Proof.HostReads
import proofs.«142974_j48077863911783_1_alg».proof.Proof.Region0
import proofs.«142974_j48077863911783_1_alg».proof.Proof.Region1
import proofs.«142974_j48077863911783_1_alg».proof.Proof.Bridge

/-!
# The kernel's result buffer as the reference's function of the arguments

The result buffer is the second region's output array, which holds the two products of the arrays that region finds.
Those are the node features, the filtered per-node mean of the edge features with its fall-back, and the two column
ranges of the weights; the filtered mean is host operations applied to the first region's two outputs, which hold the
masked features and the column of 0/1 numbers of the arrays THAT region finds: the gathered table of per-node means
and the edge features. Each link is one of the lemmas of the modules imported here; composed, the buffer is the
reference's last stage applied to the same four arguments.
-/

set_option maxRecDepth 16384

noncomputable section

namespace Cert.KernelIdeal.KV

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first region its outputs are the reference's masked features and column of numbers. -/
theorem first_outputs (c : Dev nD) :
    W4 m ρ c (Proc.devRef .tc main_v23_0) = Cert.ReferenceIdeal.PRead.val_main_v34 (F := Ideal) (m ((c : Thread nD τ).loc main_arg1)) (m ((c : Thread nD τ).loc main_arg2))
    ∧ W4 m ρ c (Proc.devRef .tc main_v23_1) = Cert.ReferenceIdeal.PRead.val_main_v32 (F := Ideal) (m ((c : Thread nD τ).loc main_arg1)) (m ((c : Thread nD τ).loc main_arg2)) := by
  have hp : R0.pArr (V3 m ρ) c = Cert.ReferenceIdeal.PRead.val_main_v22 (F := Ideal) (m ((c : Thread nD τ).loc main_arg1)) (m ((c : Thread nD τ).loc main_arg2)) := Host.W3_v22 m ρ c
  have hf : R0.fArr (V3 m ρ) c = (m ((c : Thread nD τ).loc main_arg1)) := (Host.W3_args m ρ c).2.1
  constructor
  · refine (W4_arr m ρ c 2).trans ((R0.final2 (V3 m ρ) c).trans ?_)
    rw [hp, hf]
    exact Cert.Bridge.maskedFeat_ref _ _
  · refine (W4_arr m ρ c 3).trans ((R0.final3 (V3 m ρ) c).trans ?_)
    rw [hp, hf]
    exact Cert.Bridge.maskCol_ref _ _

/-- The result buffer after the run is the reference's result stage of the four arguments. -/
theorem kernel_value (c : Dev nD) :
    W8 m ρ c (Proc.devRef .tc main_v44)
      = Cert.ReferenceIdeal.PRead.val_main_v52 (F := Ideal) (m ((c : Thread nD τ).loc main_arg0)) (m ((c : Thread nD τ).loc main_arg1)) (m ((c : Thread nD τ).loc main_arg2)) (m ((c : Thread nD τ).loc main_arg3)) := by
  obtain ⟨hmf, hmk⟩ := first_outputs m ρ c
  have a39 := Host.W7_v39 m ρ c hmf hmk (Cert.Bridge.vec_ref _ _ _)
  obtain ⟨a0, a41, a43⟩ := Host.W7_rest m ρ c
  refine (W8_arr m ρ c 4).trans ((R1.final (V7 m ρ) c).trans ?_)
  rw [show R1.hArr (V7 m ρ) c = (m ((c : Thread nD τ).loc main_arg0)) from a0, show R1.aArr (V7 m ρ) c = _ from a39,
    show R1.whArr (V7 m ρ) c = _ from a41, show R1.weArr (V7 m ρ) c = _ from a43]
  exact Cert.Bridge.result_ref _ _ _ _ _ _ _ _

end Cert.KernelIdeal.KV

end
-- ==== Proof.lean ====
/-
  A graph convolution with a similarity filter, against its jnp reference, over the extended reals.

  Both programs form, per node, the mean `hk` of the features of its incoming edges (a scatter-add of the features and
  of ones, a guarded quotient), gather `hk` back onto the edges, and per edge compare the cosine of the edge's features
  with its node's mean against 1/2. The kernel does that comparison in a first grid of row blocks (three lane sums,
  two roots, a quotient, the bit as 0 or 1, the features times it); the reference does it on the host (the same three
  sums from zero, `norm` = root of a sum of squares, the same quotient and comparison). Both then scatter-add the
  masked features and the 0/1 numbers per node, take the guarded quotient with `hk` as the fall-back, and multiply
  `[h | agg]` (160 wide) with the transposed weights: the reference as ONE product, the kernel, in a second grid of
  row blocks, as the product of `h` with the first 128 columns plus the product of `agg` with the last 32. A sum over
  160 terms is the sum of its first 128 and its last 32 terms in any commutative monoid, so the two results agree on
  every extended-real input: finiteness of the inputs is never used, and the changes of float format on the way into
  the matrix unit are the identity at the exact instance.

  The host operations the two programs share are never opened: each buffer a region reads is shown to be the
  reference's stage of the same name as a function of the arguments (Proof/HostReads.lean), each region's output
  array is one whole-array function of the arrays it finds (Proof/Region0.lean, Proof/Region1.lean), and those
  functions are the reference's stages index by index (Proof/Bridge.lean); Proof/KernelValue.lean composes them.
-/
import proofs.«142974_j48077863911783_1_alg».proof.Defs
import proofs.«142974_j48077863911783_1_alg».proof.Proof.Gen.Kernel
import proofs.«142974_j48077863911783_1_alg».proof.Proof.Gen.Kernel.Skeleton
import proofs.«142974_j48077863911783_1_alg».proof.Proof.Gen.Kernel.Launch
import proofs.«142974_j48077863911783_1_alg».proof.Proof.Gen.Kernel.Points
import proofs.«142974_j48077863911783_1_alg».proof.Proof.Gen.Kernel.Frame
import proofs.«142974_j48077863911783_1_alg».proof.Proof.Gen.KernelIdeal
import proofs.«142974_j48077863911783_1_alg».proof.Proof.Gen.KernelIdeal.Skeleton
import proofs.«142974_j48077863911783_1_alg».proof.Proof.Gen.KernelIdeal.Launch
import proofs.«142974_j48077863911783_1_alg».proof.Proof.Gen.KernelIdeal.Points
import proofs.«142974_j48077863911783_1_alg».proof.Proof.Gen.KernelIdeal.Frame
import proofs.«142974_j48077863911783_1_alg».proof.Proof.Gen.ReferenceIdeal
import proofs.«142974_j48077863911783_1_alg».proof.Proof.Gen.Pre_finite_inputs
import proofs.«142974_j48077863911783_1_alg».proof.Proof.RefRead
import proofs.«142974_j48077863911783_1_alg».proof.Proof.KernelRun
import proofs.«142974_j48077863911783_1_alg».proof.Proof.KernelValue
import Idealize.ShloMosaic.Adequacy
import Idealize.ShloMosaic.Init

noncomputable section

namespace Cert.Proof

open Idealize.ShloMosaic Idealize.SL.Sem

/-- The word-level kernel runs and leaves its arguments alone. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference is host operations only: its run, with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.PValue.run (F := Ideal) m ρ)

/-- From memories that agree on the arguments both programs end with the reference's result stage of those
    arguments in the result buffer. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.PRead.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KV.kernel_value m ρ c), (h c).2⟩)
      (Cert.KernelIdeal.RunV.run_values (F := Ideal) m ρ)
  · refine (θ_run Cert.ReferenceIdeal.defs _ _).mono (fun _ h c => ⟨(h c).1.trans ?_, (h c).2⟩)
      (Cert.ReferenceIdeal.PValue.run (F := Ideal) m' ρ')
    rw [Cert.ReferenceIdeal.PRead.val_main_v52_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
